-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x512x2048 : Shape := ⟨3, ![8, 512, 2048]⟩
abbrev S2048x2048 : Shape := ⟨2, ![2048, 2048]⟩
abbrev S2048 : Shape := ⟨1, ![2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x512x2048 : S_.BroadcastsInDim S8x512x2048 (![] : Fin 0 → Fin S8x512x2048.rank)
  reducesTo_S8x512x2048_S_d0_1_2 : S8x512x2048.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8x1024x2048 .f32) (main_arg1 : FVec F S8x512x2048 .f32) (main_arg2 : FVec F S8x512x2048 .f32) (main_arg3 : FVec F S2048x2048 .f32) (main_arg4 : FVec F S2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S8x512x2048 .f32 := Host.absf main_arg2
  let main_cst_2 : FVec F S_ .f32 := constant S_ .f32 0x7F800000#32
  let main_v10 : FVec F S8x512x2048 .f32 := broadcastInDim S8x512x2048 ![] bcast_S_S8x512x2048 main_cst_2
  let main_v11 : IVec S8x512x2048 1 := cmpf .olt main_v9 main_v10
  let main_c_3 : IVec S_ 1 := constantI S_ 1 1#1
  let main_v12 : IVec S_ 1 := (fun x v => Host.reduce IntOp.andi x v reducesTo_S8x512x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S8x1024x2048 : Shape := ⟨3, ![8, 1024, 2048]⟩
abbrev S8x512x2048 : Shape := ⟨3, ![8, 512, 2048]⟩
abbrev S2048x2048 : Shape := ⟨2, ![2048, 2048]⟩
abbrev S2048 : Shape := ⟨1, ![2048]⟩
abbrev S8x2048x2048 : Shape := ⟨3, ![8, 2048, 2048]⟩
abbrev S1x1024x2048 : Shape := ⟨3, ![1, 1024, 2048]⟩
abbrev S1x512x2048 : Shape := ⟨3, ![1, 512, 2048]⟩
abbrev S512x2048 : Shape := ⟨2, ![512, 2048]⟩
abbrev S512 : Shape := ⟨1, ![512]⟩
abbrev S1x2048x512 : Shape := ⟨3, ![1, 2048, 512]⟩
abbrev S1024x2048 : Shape := ⟨2, ![1024, 2048]⟩
abbrev S512x1024 : Shape := ⟨2, ![512, 1024]⟩
abbrev S512x512 : Shape := ⟨2, ![512, 512]⟩
abbrev S2048x512 : Shape := ⟨2, ![2048, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8x1024x2048, .f32⟩
  | .hbm, ⟨1, _⟩ => ⟨S8x512x2048, .f32⟩
  | .hbm, ⟨2, _⟩ => ⟨S8x512x2048, .f32⟩
  | .hbm, ⟨3, _⟩ => ⟨S2048x2048, .f32⟩
  | .hbm, ⟨4, _⟩ => ⟨S2048, .f32⟩
  | .hbm, ⟨5, _⟩ => ⟨S8x2048x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S512x2048, .f32⟩
  | .local _ .vmem, ⟨7, _⟩ => ⟨S512x2048, .f32⟩
  | .local _ .vmem, ⟨8, _⟩ => ⟨S512, .f32⟩
  | .local _ .vmem, ⟨9, _⟩ => ⟨S512, .f32⟩
  | .local _ .vmem, ⟨10, _⟩ => ⟨S1x2048x512, .f32⟩
  | .local _ .vmem, ⟨11, _⟩ => ⟨S1x2048x512, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S512x2048_S512x2048_0_0 : ∀ a, (![0, 0] : Fin 2 → Nat) a + S512x2048.size a ≤ S512x2048.size a
  h_S512x2048 : 0 < S512x2048.numel
  slices_S512x2048_o0_0_S512x1024 : S512x2048.Slices ![0, 0] S512x1024
  slices_S512x2048_o0_1024_S512x512 : S512x2048.Slices ![0, 1024] S512x512
  slices_S512x2048_o0_1536_S512x512 : S512x2048.Slices ![0, 1536] S512x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S1024x2048_S512x1024_S2048x512_0_1_1_0_n_n_wf : DotDims.WF S1024x2048 S512x1024 S2048x512 [0] [1] [1] [0] [] []
  dot_S512x2048_S512x512_S2048x512_0_1_1_0_n_n_wf : DotDims.WF S512x2048 S512x512 S2048x512 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .f32 = 32 ∨ (Rect.block (s := S8x1024x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x512x2048.size a
  hwx0_1 : ∀ i : grid0.Coords, EltTy.bits .f32 = 32 ∨ (Rect.block (s := S8x512x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x512x2048.size a
  hwx0_2 : ∀ i : grid0.Coords, EltTy.bits .f32 = 32 ∨ (Rect.block (s := S8x512x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .f32 = 32 ∨ (Rect.block (s := S2048x2048) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S2048.size a
  hwx0_4 : ∀ i : grid0.Coords, EltTy.bits .f32 = 32 ∨ (Rect.block (s := S2048) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x512.size a ≤ S8x2048x2048.size a
  hwx0_5 : ∀ i : grid0.Coords, EltTy.bits .f32 = 32 ∨ (Rect.block (s := S8x2048x2048) S1x2048x512.size (cc0_transform_5 i) (hinb0_5 i)).WholeWords (EltTy.packing .f32)

variable [Facts₀]

def dot_S1024x2048_S512x1024_S2048x512_0_1_1_0_n_n : DotDims S1024x2048 S512x1024 S2048x512 where
  lhsContracting := [0]
  rhsContracting := [1]
  lhsNonContracting := [1]
  rhsNonContracting := [0]
  lhsBatch := []
  rhsBatch := []
  wf := dot_S1024x2048_S512x1024_S2048x512_0_1_1_0_n_n_wf
def dot_S512x2048_S512x512_S2048x512_0_1_1_0_n_n : DotDims S512x2048 S512x512 S2048x512 where
  lhsContracting := [0]
  rhsContracting := [1]
  lhsNonContracting := [1]
  rhsNonContracting := [0]
  lhsBatch := []
  rhsBatch := []
  wf := dot_S512x2048_S512x512_S2048x512_0_1_1_0_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1024x2048 : Shape := ⟨3, ![8, 1024, 2048]⟩
abbrev S8x512x2048 : Shape := ⟨3, ![8, 512, 2048]⟩
abbrev S2048x2048 : Shape := ⟨2, ![2048, 2048]⟩
abbrev S2048 : Shape := ⟨1, ![2048]⟩
abbrev S8x2048x2048 : Shape := ⟨3, ![8, 2048, 2048]⟩
abbrev S1x1x2048 : Shape := ⟨3, ![1, 1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x512x2048, .f32⟩
  | .hbm, ⟨2, _⟩ => ⟨S8x512x2048, .f32⟩
  | .hbm, ⟨3, _⟩ => ⟨S2048x2048, .f32⟩
  | .hbm, ⟨4, _⟩ => ⟨S2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S1x1x2048, .f32⟩
  | .hbm, ⟨9, _⟩ => ⟨S8x2048x2048, .f32⟩
  | .hbm, ⟨10, _⟩ => ⟨S8x2048x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  concatenates_S8x1024x2048_S8x512x2048_S8x512x2048_S8x2048x2048_d1 : Shape.Concatenates [S8x1024x2048, S8x512x2048, S8x512x2048] S8x2048x2048 1
  transposes_S8x2048x2048_S8x2048x2048_0_2_1 : S8x2048x2048.Transposes [0, 2, 1] S8x2048x2048
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S8x2048x2048_S2048x2048_S8x2048x2048_2_1_01_0_n_n_wf : DotDims.WF S8x2048x2048 S2048x2048 S8x2048x2048 [2] [1] [0, 1] [0] [] []

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.LibMatmulColRow.lean ====
/-
  A product contracted over the FIRST axis of the left factor and the LAST axis of the right one, read at an entry
  (a general lemma: nothing here depends on a program).

  For a left factor l of shape [K, A] and a right factor r of shape [B, K], the dimension numbers
  "contract axis 0 of l with axis 1 of r, keep axis 1 of l, then axis 0 of r" give a result of shape [A, B].
  Into a zero accumulator, over the extended reals, its entry (p, q) is the sum over k of l (k, p) * r (q, k):
  the product of the two transposes, with neither transpose ever formed.  Any sizes K, A, B.
-/
import Idealize.ShloMosaic.Lib.ValueIdx
import Idealize.ShloMosaic.PureOps.Ideal.Laws

noncomputable section

namespace Cert.Lib.MatmulColRow

open Idealize.ShloMosaic Idealize.ShloMosaic.ValueIdx

/-- The dimension numbers: [K, A] by [B, K], contracting 0 with 1, into [A, B]. -/
def dims (K A B : Nat) : DotDims ⟨2, ![K, A]⟩ ⟨2, ![B, K]⟩ ⟨2, ![A, B]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

variable (K A B : Nat)

theorem contr_rank : (dims K A B).contr.rank = 1 := rfl

/-- The left factor is read at row k (the contraction position) … -/
theorem lhs_0 (j : (⟨2, ![A, B]⟩ : Shape).Idx) (q : (dims K A B).contr.Idx) :
    ((dims K A B).lhsIdx j q 0).val = (q ⟨0, by rw [contr_rank]; exact Nat.one_pos⟩).val :=
  (dims K A B).lhsIdx_val_of_single rfl j q

/-- … and at the column that is the result's row. -/
theorem lhs_1 (j : (⟨2, ![A, B]⟩ : Shape).Idx) (q : (dims K A B).contr.Idx) :
    ((dims K A B).lhsIdx j q 1).val = (j 0).val := by
  unfold DotDims.lhsIdx
  rw [dif_neg (show ¬(1 : Fin (⟨2, ![K, A]⟩ : Shape).rank) ∈ (dims K A B).lhsBatch from List.not_mem_nil),
    dif_pos (show (1 : Fin (⟨2, ![K, A]⟩ : Shape).rank) ∈ (dims K A B).lhsNonContracting from List.mem_singleton.mpr rfl)]
  rfl

/-- The right factor is read at the row that is the result's column … -/
theorem rhs_0 (j : (⟨2, ![A, B]⟩ : Shape).Idx) (q : (dims K A B).contr.Idx) :
    ((dims K A B).rhsIdx j q 0).val = (j 1).val := by
  unfold DotDims.rhsIdx
  rw [dif_neg (show ¬(0 : Fin (⟨2, ![B, K]⟩ : Shape).rank) ∈ (dims K A B).rhsBatch from List.not_mem_nil),
    dif_pos (show (0 : Fin (⟨2, ![B, K]⟩ : Shape).rank) ∈ (dims K A B).rhsNonContracting from List.mem_singleton.mpr rfl)]
  rfl

/-- … and at column k. -/
theorem rhs_1 (j : (⟨2, ![A, B]⟩ : Shape).Idx) (q : (dims K A B).contr.Idx) :
    ((dims K A B).rhsIdx j q 1).val = (q ⟨0, by rw [contr_rank]; exact Nat.one_pos⟩).val :=
  (dims K A B).rhsIdx_val_of_single rfl j q

/-- Entry (p, q) of the product into a zero accumulator: the sum over k of l (k, p) * r (q, k). -/
theorem matmul_zero_apply {φ₁ φ₂ : FTy} (prec : Option ContractPrecision)
    (l : FVec Ideal ⟨2, ![K, A]⟩ φ₁) (r : FVec Ideal ⟨2, ![B, K]⟩ φ₂) (p : Fin A) (q : Fin B) :
    matmul (dims K A B) prec l r (constant ⟨2, ![A, B]⟩ .f32 0x00000000#32) (ix2 p q)
      = ∑ k : Fin K, l (ix2 k p) * r (ix2 q k) := by
  show FloatOps.matmul (dims K A B) prec l r (constant ⟨2, ![A, B]⟩ .f32 0x00000000#32) (ix2 p q) = _
  rw [Ideal.matmul_constant_zero_apply, ← Equiv.sum_comp (contrEquiv1 (dims K A B) K rfl rfl).symm]
  refine Finset.sum_congr rfl fun k _ => ?_
  have hk := contrEquiv1_symm_val (dims K A B) K rfl rfl k
  have el : (dims K A B).lhsIdx (ix2 p q) ((contrEquiv1 (dims K A B) K rfl rfl).symm k) = ix2 k p :=
    funext fun a => Fin.ext (by
      match a with
      | ⟨0, _⟩ => exact (lhs_0 K A B _ _).trans hk
      | ⟨1, _⟩ => exact lhs_1 K A B _ _)
  have er : (dims K A B).rhsIdx (ix2 p q) ((contrEquiv1 (dims K A B) K rfl rfl).symm k) = ix2 q k :=
    funext fun a => Fin.ext (by
      match a with
      | ⟨0, _⟩ => exact rhs_0 K A B _ _
      | ⟨1, _⟩ => exact (rhs_1 K A B _ _).trans hk)
  rw [el, er]

end Cert.Lib.MatmulColRow

end
-- ==== Proof.Spec.lean ====
/-
  The function both programs compute, and the one law that joins their two spellings of it.

  x0 : [8, 1024, 2048] and x1, x2 : [8, 512, 2048] are three stacks of feature rows; laid one under the other along the
  feature axis they form, for each batch b, a matrix with 2048 feature rows and 2048 positions.  w : [2048, 2048] is a
  weight matrix whose row o lists output o's 2048 weights, bias : [2048] one number per output.  The result at
  (b, s, o) is the weighted sum of position s's 2048 features with row o of w, plus bias o: a linear layer applied at
  every position, the features taken piece by piece — x0 against columns 0…1023 of w, x1 against columns 1024…1535,
  x2 against columns 1536…2047.

  The law: a sum over 2048 consecutive indices is the sum over the first 1024, plus the next 512, plus the last 512.
  It holds in every commutative monoid, so on the extended reals it needs no finiteness.
-/
import Idealize.ShloMosaic.Lib.ValueIdx
import Idealize.ShloMosaic.PureOps.Ideal

noncomputable section

namespace Cert.Spec

open Idealize.ShloMosaic Idealize.ShloMosaic.ValueIdx

/-- Column `off + k` of the weight matrix, for `k` inside a piece of `n` features that starts at `off`. -/
abbrev col (off : Nat) {n : Nat} (k : Fin n) (h : off + n ≤ 2048) : Fin 2048 :=
  ⟨off + k.val, Nat.lt_of_lt_of_le (Nat.add_lt_add_left k.isLt off) h⟩

/-- The result at batch `b`, position `s`, output `o`. -/
def entry (x0 : FVec Ideal ⟨3, ![8, 1024, 2048]⟩ .f32) (x1 x2 : FVec Ideal ⟨3, ![8, 512, 2048]⟩ .f32)
    (w : FVec Ideal ⟨2, ![2048, 2048]⟩ .f32) (bias : FVec Ideal ⟨1, ![2048]⟩ .f32)
    (b : Fin 8) (s o : Fin 2048) : EReal :=
  (((∑ k : Fin 1024, x0 (ix3 b k s) * w (ix2 o (col 0 k (by decide))))
      + ∑ k : Fin 512, x1 (ix3 b k s) * w (ix2 o (col 1024 k (by decide))))
    + ∑ k : Fin 512, x2 (ix3 b k s) * w (ix2 o (col 1536 k (by decide))))
  + bias (ix1 o)

/-- The whole result array. -/
def linear (x0 : FVec Ideal ⟨3, ![8, 1024, 2048]⟩ .f32) (x1 x2 : FVec Ideal ⟨3, ![8, 512, 2048]⟩ .f32)
    (w : FVec Ideal ⟨2, ![2048, 2048]⟩ .f32) (bias : FVec Ideal ⟨1, ![2048]⟩ .f32) :
    FVec Ideal ⟨3, ![8, 2048, 2048]⟩ .f32 :=
  fun i => entry x0 x1 x2 w bias ⟨(i 0).val, (i 0).isLt⟩ ⟨(i 1).val, (i 1).isLt⟩ ⟨(i 2).val, (i 2).isLt⟩

/-- A sum over 2048 indices, cut at 1024 and at 1536. -/
theorem sum_three {M : Type*} [AddCommMonoid M] (f : Fin 2048 → M) :
    ∑ k : Fin 2048, f k
      = ((∑ k : Fin 1024, f (col 0 k (by decide))) + ∑ k : Fin 512, f (col 1024 k (by decide)))
        + ∑ k : Fin 512, f (col 1536 k (by decide)) := by
  have h1 := Fin.sum_univ_add (a := 1536) (b := 512) f
  have h2 := Fin.sum_univ_add (a := 1024) (b := 512) (fun i : Fin 1536 => f (Fin.castAdd 512 i))
  rw [h1, h2]
  refine congrArg₂ (· + ·) (congrArg₂ (· + ·) ?_ ?_) ?_
  · exact Finset.sum_congr rfl fun k _ => congrArg f (Fin.ext (Nat.zero_add _).symm)
  · exact Finset.sum_congr rfl fun k _ => congrArg f (Fin.ext rfl)
  · exact Finset.sum_congr rfl fun k _ => congrArg f (Fin.ext rfl)

end Cert.Spec

end
-- ==== Proof.KernelPayload.lean ====
/-
  What the kernel body stores, read at one entry.

  At a grid point the body holds one batch's three feature blocks v0 : [1, 1024, 2048], v3, v6 : [1, 512, 2048], a block
  v9 : [512, 2048] of 512 rows of the weight matrix and the 512 matching bias entries v19.  It narrows them to bf16 (the
  identity on the extended reals), cuts the weight block's columns into 0…1023, 1024…1535 and 1536…2047, multiplies each
  feature block by its column piece contracting the FEATURE axis of both (first axis of the features, last axis of the
  weights), adds the three products and the bias row.  So the stored block at (·, s, o) is the three sums over features
  of feature (k, s) * weight (o, offset + k), plus bias o.
-/
import proofs.«100553_j2834678415760_1_alg».proof.Proof.Gen.KernelIdeal.Skeleton
import proofs.«100553_j2834678415760_1_alg».proof.Proof.LibMatmulColRow
import proofs.«100553_j2834678415760_1_alg».proof.Proof.Spec
import Idealize.ShloMosaic.Lib.ValueLayout
import Idealize.ShloMosaic.Lib.ValueIdx

noncomputable section

namespace Cert.KernelValue

open Cert.KernelIdeal Cert.KernelIdeal.Gen
open Idealize.ShloMosaic Idealize.ShloMosaic.ValueIdx

/-- The product of the 1024-feature block with its 1024 weight columns, at (s, o). -/
theorem mm_wide (l : FVec Ideal S1024x2048 .bf16) (r : FVec Ideal S512x1024 .bf16) (s : Fin 2048) (o : Fin 512) :
    matmul dot_S1024x2048_S512x1024_S2048x512_0_1_1_0_n_n none l r (constant S2048x512 .f32 0x00000000#32) (ix2 s o)
      = ∑ k : Fin 1024, l (ix2 k s) * r (ix2 o k) :=
  Cert.Lib.MatmulColRow.matmul_zero_apply 1024 2048 512 none l r s o

/-- The product of a 512-feature block with its 512 weight columns, at (s, o). -/
theorem mm_narrow (l : FVec Ideal S512x2048 .bf16) (r : FVec Ideal S512x512 .bf16) (s : Fin 2048) (o : Fin 512) :
    matmul dot_S512x2048_S512x512_S2048x512_0_1_1_0_n_n none l r (constant S2048x512 .f32 0x00000000#32) (ix2 s o)
      = ∑ k : Fin 512, l (ix2 k s) * r (ix2 o k) :=
  Cert.Lib.MatmulColRow.matmul_zero_apply 512 2048 512 none l r s o

/-- The stored block at (u, s, o), from the loaded blocks. -/
theorem payload_apply (v0 : Vec Ideal S1x1024x2048 .f32) (v3 v6 : Vec Ideal S1x512x2048 .f32)
    (v9 : Vec Ideal S512x2048 .f32) (v19 : Vec Ideal S512 .f32) (u : Fin 1) (s : Fin 2048) (o : Fin 512) :
    k0_pay1 (F := Ideal) v0 v3 v6 v9 v19 (ix3 u s o)
      = (((∑ k : Fin 1024, v0 (ix3 (0 : Fin 1) k s) * v9 (ix2 o (Spec.col 0 k (by decide))))
            + ∑ k : Fin 512, v3 (ix3 (0 : Fin 1) k s) * v9 (ix2 o (Spec.col 1024 k (by decide))))
          + ∑ k : Fin 512, v6 (ix3 (0 : Fin 1) k s) * v9 (ix2 o (Spec.col 1536 k (by decide))))
        + v19 (ix1 o) := by
  unfold k0_pay1
  rw [shapeCast_ab_1ab_apply]
  simp only [addf_apply]
  rw [mm_wide, mm_narrow, mm_narrow, broadcastTo_1b_ab_apply, shapeCast_a_1a_apply]
  simp only [truncf_apply, shapeCast_1ab_ab_apply, slice2_axis1_eq]

end Cert.KernelValue

end
-- ==== Proof.KernelArray.lean ====
/-
  From what each grid point stores to the whole result array.

  The grid has 4 × 8 points; point (ot, b) holds batch b's three feature blocks, rows 512·ot … 512·ot + 511 of the
  weight matrix and the same 512 bias entries, and writes back the block [b, all positions, outputs 512·ot … 512·ot + 511]
  of the result.  What it stores there (`KernelValue.payload_apply`) is `Spec.entry` at the block's own coordinates,
  because every input block sits at the batch and at the output rows of the block it is stored to.  The 32 output blocks
  tile the result array, so the array ends holding `Spec.linear` of the argument arrays.
-/
import proofs.«100553_j2834678415760_1_alg».proof.Proof.Gen.KernelIdeal.Value
import proofs.«100553_j2834678415760_1_alg».proof.Proof.KernelPayload
import proofs.«100553_j2834678415760_1_alg».proof.Proof.Spec
import Idealize.ShloMosaic.Lib.Pipeline.Value
import Idealize.ShloMosaic.Lib.ValueIdx
import Idealize.ShloMosaic.Lib.Tactic

set_option maxRecDepth 16384

noncomputable section

namespace Cert.KernelValue

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Where each window's block sits, relative to the output block of the same point: the feature blocks at the output's
    batch, the weight rows and the bias entries at the output's block of outputs; everything else at block 0. -/
theorem idx_facts : ∀ t : Fin cfg0.N,
    win0_0.index t (0 : Fin 3) = win0_5.index t (0 : Fin 3) ∧ win0_0.index t (1 : Fin 3) = 0 ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 2) = win0_5.index t (2 : Fin 3) ∧ win0_3.index t (1 : Fin 2) = 0
    ∧ win0_4.index t (0 : Fin 1) = win0_5.index t (2 : Fin 3)
    ∧ win0_5.index t (1 : Fin 3) = 0 ∧ win0_5.index t (0 : Fin 3) < 8 ∧ win0_5.index t (2 : Fin 3) < 4 :=
  (by decide +kernel : ∀ t : Fin grid0.N, _)

/-- Every (batch, block of outputs) pair is some point's output block. -/
theorem idx_onto : ∀ (q0 : Fin 8) (q2 : Fin 4), ∃ t : Fin cfg0.N, win0_5.index t = ![q0.val, 0, q2.val] :=
  (by decide +kernel : ∀ (q0 : Fin 8) (q2 : Fin 4), ∃ t : Fin grid0.N, win0_5.index t = ![q0.val, 0, q2.val])

/-- The result array's contents, from the argument arrays as the region finds them. -/
abbrev result (c : Dev nD) : FVec Ideal S8x2048x2048 .f32 :=
  Spec.linear (V m c main_arg0) (V m c main_arg1) (V m c main_arg2) (V m c main_arg3) (V m c main_arg4)

/-- What point `t` writes back is block `t` of `result`. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz3]
  simp only [View.ld_unit_zero (S := S1x1024x2048) hz3, View.ld_unit_zero (S := S1x512x2048) hz3,
    View.ld_unit_zero (S := S512x2048) hz2, View.ld_unit_zero (S := S512) hz1]
  obtain ⟨a00, a01, a02, a10, a11, a12, a20, a21, a22, a30, a31, a40, o1, ob, oo⟩ := idx_facts t
  funext j
  obtain ⟨u, s, o, rfl⟩ : ∃ (u : Fin 1) (s : Fin 2048) (o : Fin 512), j = ix3 u s o := ⟨j 0, j 1, j 2, eq_ix3 j⟩
  show k0_pay1 (F := Ideal) (iblk m c 0 t) (iblk m c 1 t) (iblk m c 2 t) (iblk m c 3 t) (iblk m c 4 t) (ix3 u s o)
    = result m c (((cfg0.win 5).blk t).view.emb (ix3 u s o))
  refine (payload_apply (iblk m c 0 t) (iblk m c 1 t) (iblk m c 2 t) (iblk m c 3 t) (iblk m c 4 t) u s o).trans ?_
  show _ = Spec.entry (V m c main_arg0) (V m c main_arg1) (V m c main_arg2) (V m c main_arg3) (V m c main_arg4) _ _ _
  unfold Spec.entry
  refine congrArg₂ (· + ·) (congrArg₂ (· + ·) (congrArg₂ (· + ·) ?_ ?_) ?_) ?_
  · refine Finset.sum_congr rfl fun k _ => congrArg₂ (· * ·) ?_ ?_
    · show V m c main_arg0 (((cfg0.win 0).blk t).view.emb (ix3 0 k s)) = V m c main_arg0 _
      refine congrArg (V m c main_arg0) (funext fun a => Fin.ext ?_)
      match a with
      | ⟨0, _⟩ => show win0_0.index t (0 : Fin 3) * 1 + 1 * 0 = win0_5.index t (0 : Fin 3) * 1 + 1 * u.val; omega
      | ⟨1, _⟩ => show win0_0.index t (1 : Fin 3) * 1024 + 1 * k.val = k.val; omega
      | ⟨2, _⟩ => show win0_0.index t (2 : Fin 3) * 2048 + 1 * s.val = win0_5.index t (1 : Fin 3) * 2048 + 1 * s.val; omega
    · show V m c main_arg3 (((cfg0.win 3).blk t).view.emb (ix2 o (Spec.col 0 k (by decide)))) = V m c main_arg3 _
      refine congrArg (V m c main_arg3) (funext fun a => Fin.ext ?_)
      match a with
      | ⟨0, _⟩ => show win0_3.index t (0 : Fin 2) * 512 + 1 * o.val = win0_5.index t (2 : Fin 3) * 512 + 1 * o.val; omega
      | ⟨1, _⟩ => show win0_3.index t (1 : Fin 2) * 2048 + 1 * (0 + k.val) = 0 + k.val; omega
  · refine Finset.sum_congr rfl fun k _ => congrArg₂ (· * ·) ?_ ?_
    · show V m c main_arg1 (((cfg0.win 1).blk t).view.emb (ix3 0 k s)) = V m c main_arg1 _
      refine congrArg (V m c main_arg1) (funext fun a => Fin.ext ?_)
      match a with
      | ⟨0, _⟩ => show win0_1.index t (0 : Fin 3) * 1 + 1 * 0 = win0_5.index t (0 : Fin 3) * 1 + 1 * u.val; omega
      | ⟨1, _⟩ => show win0_1.index t (1 : Fin 3) * 512 + 1 * k.val = k.val; omega
      | ⟨2, _⟩ => show win0_1.index t (2 : Fin 3) * 2048 + 1 * s.val = win0_5.index t (1 : Fin 3) * 2048 + 1 * s.val; omega
    · show V m c main_arg3 (((cfg0.win 3).blk t).view.emb (ix2 o (Spec.col 1024 k (by decide)))) = V m c main_arg3 _
      refine congrArg (V m c main_arg3) (funext fun a => Fin.ext ?_)
      match a with
      | ⟨0, _⟩ => show win0_3.index t (0 : Fin 2) * 512 + 1 * o.val = win0_5.index t (2 : Fin 3) * 512 + 1 * o.val; omega
      | ⟨1, _⟩ => show win0_3.index t (1 : Fin 2) * 2048 + 1 * (1024 + k.val) = 1024 + k.val; omega
  · refine Finset.sum_congr rfl fun k _ => congrArg₂ (· * ·) ?_ ?_
    · show V m c main_arg2 (((cfg0.win 2).blk t).view.emb (ix3 0 k s)) = V m c main_arg2 _
      refine congrArg (V m c main_arg2) (funext fun a => Fin.ext ?_)
      match a with
      | ⟨0, _⟩ => show win0_2.index t (0 : Fin 3) * 1 + 1 * 0 = win0_5.index t (0 : Fin 3) * 1 + 1 * u.val; omega
      | ⟨1, _⟩ => show win0_2.index t (1 : Fin 3) * 512 + 1 * k.val = k.val; omega
      | ⟨2, _⟩ => show win0_2.index t (2 : Fin 3) * 2048 + 1 * s.val = win0_5.index t (1 : Fin 3) * 2048 + 1 * s.val; omega
    · show V m c main_arg3 (((cfg0.win 3).blk t).view.emb (ix2 o (Spec.col 1536 k (by decide)))) = V m c main_arg3 _
      refine congrArg (V m c main_arg3) (funext fun a => Fin.ext ?_)
      match a with
      | ⟨0, _⟩ => show win0_3.index t (0 : Fin 2) * 512 + 1 * o.val = win0_5.index t (2 : Fin 3) * 512 + 1 * o.val; omega
      | ⟨1, _⟩ => show win0_3.index t (1 : Fin 2) * 2048 + 1 * (1536 + k.val) = 1536 + k.val; omega
  · show V m c main_arg4 (((cfg0.win 4).blk t).view.emb (ix1 o)) = V m c main_arg4 _
    refine congrArg (V m c main_arg4) (funext fun a => Fin.ext ?_)
    match a with
    | ⟨0, _⟩ => show win0_4.index t (0 : Fin 1) * 512 + 1 * o.val = win0_5.index t (2 : Fin 3) * 512 + 1 * o.val; omega

/-- An index of the result array is in point `t`'s output block iff each coordinate is in the block's range. -/
theorem mem_blk (t : Fin cfg0.N) (i : S8x2048x2048.Idx) :
    i ∈ ((cfg0.win 5).blk t).view.set ↔ ∀ a : Fin 3, win0_5.index t a * S1x2048x512.size a ≤ (i a).val
      ∧ (i a).val < win0_5.index t a * S1x2048x512.size a + S1x2048x512.size a := by
  show i ∈ ((View.whole main_v0).slice (win0_5.rect t)).set ↔ _
  rw [View.set_slice_whole, Rect.mem_set_unit]
  exact Iff.rfl

/-- The output blocks tile the result array: (b, s, o) lies in the block of batch b and outputs' block o / 512. -/
theorem cover (i : S8x2048x2048.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 2).val / 512, by omega⟩
  have q0 : win0_5.index t (0 : Fin 3) = (i 0).val := congrFun ht 0
  have q1 : win0_5.index t (1 : Fin 3) = 0 := congrFun ht 1
  have q2 : win0_5.index t (2 : Fin 3) = (i 2).val / 512 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 512 ≤ (i 2).val ∧ (i 2).val < win0_5.index t (2 : Fin 3) * 512 + 512; omega

/-- The result array after the run. -/
theorem final (c : Dev nD) : (dats m 0 c).arrAt 5 cfg0.N = result m c :=
  (dats m 0 c).arrAt_eq_of_cover 5 (result m c) (fun t _ => flushed_eq m c t) cover

/-- The kernel's run, read: the result array at `Spec.linear` of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelValue

end
-- ==== Proof.RefValue.lean ====
/-
  The reference program computes `Spec.linear`.

  The reference lays the three feature stacks one under the other (a concatenation along the feature axis), swaps the
  feature and position axes, multiplies by the weight matrix contracting the feature axis with the weights' column axis,
  and adds the bias along the output axis.  Read at (b, s, o): the sum over all 2048 features f of
  stacked (b, f, s) * w (o, f), plus bias o.  Feature f of the stacked array is feature f of x0 when f < 1024, feature
  f - 1024 of x1 when 1024 ≤ f < 1536, feature f - 1536 of x2 otherwise; cutting the sum at 1024 and 1536
  (`Spec.sum_three`) gives the three sums of `Spec.entry`.
-/
import proofs.«100553_j2834678415760_1_alg».proof.Proof.Gen.ReferenceIdeal.Read
import proofs.«100553_j2834678415760_1_alg».proof.Proof.Spec
import Idealize.ShloMosaic.Lib.Pipeline.Value
import Idealize.ShloMosaic.Lib.ValueIdx

noncomputable section

namespace Cert.RefValue

open Cert.ReferenceIdeal Cert.ReferenceIdeal.Gen Cert.ReferenceIdeal.Read
open Idealize.ShloMosaic Idealize.ShloMosaic.ValueIdx

variable (x0 : FVec Ideal S8x1024x2048 .f32) (x1 x2 : FVec Ideal S8x512x2048 .f32)

/-- Features 0 … 1023 of the stacked array are x0's. -/
theorem stack_lo (b : Fin 8) (k : Fin 1024) (s : Fin 2048) :
    val_main_v0 (F := Ideal) x0 x1 x2 (ix3 b (Spec.col 0 k (by decide)) s) = x0 (ix3 b k s) := by
  unfold val_main_v0
  refine concatenate_apply_piece (t := S8x2048x2048) (1 : Fin 3) [⟨S8x1024x2048, x0⟩, ⟨S8x512x2048, x1⟩, ⟨S8x512x2048, x2⟩] concatenates_S8x1024x2048_S8x512x2048_S8x512x2048_S8x2048x2048_d1
    (ix3 b (Spec.col 0 k (by decide)) s) 0 (by show 0 < 3; decide) S8x1024x2048 x0 rfl rfl
    0 rfl (ix3 b k s) (fun a ha => ?_) rfl
  match a with
  | ⟨0, _⟩ => rfl
  | ⟨1, _⟩ => exact absurd rfl ha
  | ⟨2, _⟩ => rfl

/-- Features 1024 … 1535 of the stacked array are x1's. -/
theorem stack_mid (b : Fin 8) (k : Fin 512) (s : Fin 2048) :
    val_main_v0 (F := Ideal) x0 x1 x2 (ix3 b (Spec.col 1024 k (by decide)) s) = x1 (ix3 b k s) := by
  unfold val_main_v0
  refine concatenate_apply_piece (t := S8x2048x2048) (1 : Fin 3) [⟨S8x1024x2048, x0⟩, ⟨S8x512x2048, x1⟩, ⟨S8x512x2048, x2⟩] concatenates_S8x1024x2048_S8x512x2048_S8x512x2048_S8x2048x2048_d1
    (ix3 b (Spec.col 1024 k (by decide)) s) 1 (by show 1 < 3; decide) S8x512x2048 x1 rfl rfl
    1024 rfl (ix3 b k s) (fun a ha => ?_) rfl
  match a with
  | ⟨0, _⟩ => rfl
  | ⟨1, _⟩ => exact absurd rfl ha
  | ⟨2, _⟩ => rfl

/-- Features 1536 … 2047 of the stacked array are x2's. -/
theorem stack_hi (b : Fin 8) (k : Fin 512) (s : Fin 2048) :
    val_main_v0 (F := Ideal) x0 x1 x2 (ix3 b (Spec.col 1536 k (by decide)) s) = x2 (ix3 b k s) := by
  unfold val_main_v0
  refine concatenate_apply_piece (t := S8x2048x2048) (1 : Fin 3) [⟨S8x1024x2048, x0⟩, ⟨S8x512x2048, x1⟩, ⟨S8x512x2048, x2⟩] concatenates_S8x1024x2048_S8x512x2048_S8x512x2048_S8x2048x2048_d1
    (ix3 b (Spec.col 1536 k (by decide)) s) 2 (by show 2 < 3; decide) S8x512x2048 x2 rfl rfl
    1536 rfl (ix3 b k s) (fun a ha => ?_) rfl
  match a with
  | ⟨0, _⟩ => rfl
  | ⟨1, _⟩ => exact absurd rfl ha
  | ⟨2, _⟩ => rfl

/-- The transposed stack at (b, s, f) is the stack at (b, f, s). -/
theorem swapped_apply (i : S8x2048x2048.Idx) (f : Fin 2048) :
    val_main_v1 (F := Ideal) x0 x1 x2 (lidx_main_v2 i f)
      = val_main_v0 (F := Ideal) x0 x1 x2 (ix3 ⟨(i 0).val, (i 0).isLt⟩ f ⟨(i 1).val, (i 1).isLt⟩) := by
  rw [val_main_v1_apply]
  refine congrArg (val_main_v0 (F := Ideal) x0 x1 x2) (funext fun a => ?_)
  match a with
  | ⟨0, _⟩ => rfl
  | ⟨1, _⟩ => rfl
  | ⟨2, _⟩ => rfl

/-- The weight the product reads at output (·, ·, o) and feature f is w (o, f). -/
theorem weight_idx (i : S8x2048x2048.Idx) (f : Fin 2048) :
    ridx_main_v2 i f = ix2 ⟨(i 2).val, (i 2).isLt⟩ f := by
  funext a
  match a with
  | ⟨0, _⟩ => rfl
  | ⟨1, _⟩ => rfl

/-- The reference's result array is `Spec.linear` of the arguments. -/
theorem reference_eq (x3 : FVec Ideal S2048x2048 .f32) (x4 : FVec Ideal S2048 .f32) :
    val_main_v5 (F := Ideal) x0 x1 x2 x3 x4 = Spec.linear x0 x1 x2 x3 x4 := by
  funext i
  rw [val_main_v5_apply, val_main_v2_apply, val_main_v4_apply, val_main_v3_apply]
  show (∑ f : Fin 2048, val_main_v1 (F := Ideal) x0 x1 x2 (lidx_main_v2 i f) * x3 (ridx_main_v2 i f))
      + x4 (idx_main_v3 (idx_main_v4 i)) = _
  rw [Spec.sum_three]
  unfold Spec.linear Spec.entry
  refine congrArg₂ (· + ·) (congrArg₂ (· + ·) (congrArg₂ (· + ·) ?_ ?_) ?_) ?_
  · refine Finset.sum_congr rfl fun k _ => ?_
    rw [swapped_apply, stack_lo, weight_idx]
    rfl
  · refine Finset.sum_congr rfl fun k _ => ?_
    rw [swapped_apply, stack_mid, weight_idx]
    rfl
  · refine Finset.sum_congr rfl fun k _ => ?_
    rw [swapped_apply, stack_hi, weight_idx]
    rfl
  · refine congrArg x4 (funext fun a => ?_)
    match a with
    | ⟨0, _⟩ => rfl

end Cert.RefValue

end
-- ==== Proof.lean ====
/-
  A linear layer over features given in three pieces, computed without ever joining or transposing them.

  Inputs: x0 : [8, 1024, 2048] and x1, x2 : [8, 512, 2048] (batch, feature, position), a weight matrix w : [2048, 2048]
  (output, feature) and a bias : [2048].  The reference stacks the three pieces along the feature axis, swaps features
  and positions, multiplies by w over the 2048 features and adds the bias:
      out (b, s, o) = Σ_{f < 2048} stacked (b, f, s) · w (o, f) + bias o.
  The kernel, for each batch b and each block of 512 outputs, multiplies each piece by its own columns of w, contracting
  the feature axis where it already lies (first axis of the piece, last axis of the weights), and adds the three products
  and the bias:
      out (b, s, o) = ((Σ_{k < 1024} x0 (b, k, s) · w (o, k) + Σ_{k < 512} x1 (b, k, s) · w (o, 1024 + k))
                        + Σ_{k < 512} x2 (b, k, s) · w (o, 1536 + k)) + bias o.
  On the extended reals the narrowing of the operands to bf16 is the identity, and the two right-hand sides are equal
  because a sum over 2048 indices is the sum over its first 1024, its next 512 and its last 512 (`Spec.sum_three`): a
  law of commutative monoids, so no finiteness of the inputs is used.

  `Spec.linear` is that function; `RefValue.reference_eq` reads the reference's operations at an index and finds it;
  `KernelValue.payload_apply` reads what a grid point stores, `KernelValue.flushed_eq` places it in the result array and
  `KernelValue.final` tiles the array with the 32 blocks.  The three programs' runs terminate without fault with the
  arguments unchanged; the idealized kernel is the kernel's own text read over the extended reals (nothing was rewritten).
-/
import proofs.«100553_j2834678415760_1_alg».proof.Defs
import proofs.«100553_j2834678415760_1_alg».proof.Proof.Gen.Kernel
import proofs.«100553_j2834678415760_1_alg».proof.Proof.Gen.Kernel.Skeleton
import proofs.«100553_j2834678415760_1_alg».proof.Proof.Gen.Kernel.Launch
import proofs.«100553_j2834678415760_1_alg».proof.Proof.Gen.Kernel.Points
import proofs.«100553_j2834678415760_1_alg».proof.Proof.Gen.Kernel.Frame
import proofs.«100553_j2834678415760_1_alg».proof.Proof.Gen.KernelIdeal
import proofs.«100553_j2834678415760_1_alg».proof.Proof.Gen.KernelIdeal.Skeleton
import proofs.«100553_j2834678415760_1_alg».proof.Proof.Gen.KernelIdeal.Launch
import proofs.«100553_j2834678415760_1_alg».proof.Proof.Gen.KernelIdeal.Points
import proofs.«100553_j2834678415760_1_alg».proof.Proof.Gen.KernelIdeal.Frame
import proofs.«100553_j2834678415760_1_alg».proof.Proof.Gen.ReferenceIdeal
import proofs.«100553_j2834678415760_1_alg».proof.Proof.Gen.Pre_finite_inputs
import proofs.«100553_j2834678415760_1_alg».proof.Proof.Gen.KernelIdeal.Value
import proofs.«100553_j2834678415760_1_alg».proof.Proof.Gen.ReferenceIdeal.Run
import proofs.«100553_j2834678415760_1_alg».proof.Proof.Gen.ReferenceIdeal.Read
import proofs.«100553_j2834678415760_1_alg».proof.Proof.KernelArray
import proofs.«100553_j2834678415760_1_alg».proof.Proof.RefValue
import Idealize.ShloMosaic.Adequacy
import Idealize.ShloMosaic.Init

noncomputable section

namespace Cert.Proof

open Idealize.ShloMosaic Idealize.ShloMosaic.TcCoe Idealize.SL.Sem

/-- The kernel, word by word, runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the result array at `Spec.linear` of the arguments. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v5_eq _ _ _ _ _).trans (Cert.RefValue.reference_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
